-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : FVec F S8x64x512 .f32) (main_arg2 : FVec F S1024x1024 .f32) (main_arg3 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S512x1024 : Shape := ⟨2, ![512, 1024]⟩
abbrev S2048x512 : Shape := ⟨2, ![2048, 512]⟩
abbrev S512x512 : Shape := ⟨2, ![512, 512]⟩
abbrev S2048x1024 : Shape := ⟨2, ![2048, 1024]⟩
abbrev S256x512 : Shape := ⟨2, ![256, 512]⟩
abbrev S256x1024 : Shape := ⟨2, ![256, 1024]⟩
abbrev S8x256x1024 : Shape := ⟨3, ![8, 256, 1024]⟩
abbrev S8x64x1024 : Shape := ⟨3, ![8, 64, 1024]⟩
abbrev S1x1024 : Shape := ⟨2, ![1, 1024]⟩
abbrev S8x256x64x1024 : Shape := ⟨4, ![8, 256, 64, 1024]⟩
abbrev S1x32x1024 : Shape := ⟨3, ![1, 32, 1024]⟩
abbrev S1x64x1024 : Shape := ⟨3, ![1, 64, 1024]⟩
abbrev S1x32x64x1024 : Shape := ⟨4, ![1, 32, 64, 1024]⟩
abbrev S1x32x1x1024 : Shape := ⟨4, ![1, 32, 1, 1024]⟩
abbrev S1x1x64x1024 : Shape := ⟨4, ![1, 1, 64, 1024]⟩
abbrev S1x1x1x1024 : Shape := ⟨4, ![1, 1, 1, 1024]⟩

abbrev nBuf : Space → Nat
  | .hbm => 14
  | .vmem => 17
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x1024, .f32⟩
  | .hbm, ⟨3, _⟩ => ⟨S1024, .f32⟩
  | .hbm, ⟨4, _⟩ => ⟨S512x1024, .f32⟩
  | .hbm, ⟨5, _⟩ => ⟨S512x1024, .f32⟩
  | .hbm, ⟨6, _⟩ => ⟨S2048x512, .f32⟩
  | .hbm, ⟨7, _⟩ => ⟨S512x512, .f32⟩
  | .hbm, ⟨8, _⟩ => ⟨S2048x1024, .f32⟩
  | .hbm, ⟨9, _⟩ => ⟨S512x1024, .f32⟩
  | .hbm, ⟨10, _⟩ => ⟨S8x256x1024, .f32⟩
  | .hbm, ⟨11, _⟩ => ⟨S8x64x1024, .f32⟩
  | .hbm, ⟨12, _⟩ => ⟨S1x1024, .f32⟩
  | .hbm, ⟨13, _⟩ => ⟨S8x256x64x1024, .f32⟩
  | .local _ .vmem, ⟨0, _⟩ => ⟨S256x512, .f32⟩
  | .local _ .vmem, ⟨1, _⟩ => ⟨S256x512, .f32⟩
  | .local _ .vmem, ⟨2, _⟩ => ⟨S512x1024, .f32⟩
  | .local _ .vmem, ⟨3, _⟩ => ⟨S256x1024, .f32⟩
  | .local _ .vmem, ⟨4, _⟩ => ⟨S256x1024, .f32⟩
  | .local _ .vmem, ⟨5, _⟩ => ⟨S256x512, .f32⟩
  | .local _ .vmem, ⟨6, _⟩ => ⟨S256x512, .f32⟩
  | .local _ .vmem, ⟨7, _⟩ => ⟨S512x1024, .f32⟩
  | .local _ .vmem, ⟨8, _⟩ => ⟨S256x1024, .f32⟩
  | .local _ .vmem, ⟨9, _⟩ => ⟨S256x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x1024, .f32⟩
  | .local _ .vmem, ⟨15, _⟩ => ⟨S1x32x64x1024, .f32⟩
  | .local _ .vmem, ⟨16, _⟩ => ⟨S1x32x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x32x64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S1024x1024_S512x1024_0_0 : S1024x1024.Slices ![0, 0] S512x1024
  slices_S1024x1024_S512x1024_512_0 : S1024x1024.Slices ![512, 0] S512x1024
  shapeCasts_S8x256x512_S2048x512 : S8x256x512.ShapeCasts S2048x512
  shapeCasts_S8x64x512_S512x512 : S8x64x512.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  shapeCasts_S2048x1024_S8x256x1024 : S2048x1024.ShapeCasts S8x256x1024
  shapeCasts_S512x1024_S8x64x1024 : S512x1024.ShapeCasts S8x64x1024
  shapeCasts_S1024_S1x1024 : S1024.ShapeCasts S1x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S1x32x1024 : S1x32x1024.ShapeCasts S1x32x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S1x64x1024 : S1x64x1024.ShapeCasts S1x64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x32x1024_S1x32x1x1024 : S1x32x1024.ShapeCasts S1x32x1x1024
  shapeCasts_S1x64x1024_S1x1x64x1024 : S1x64x1024.ShapeCasts S1x1x64x1024
  shapeCasts_S1x1024_S1x1x1x1024 : S1x1024.ShapeCasts S1x1x1x1024
  broadcasts_S1x32x1x1024_S1x32x64x1024 : S1x32x1x1024.Broadcasts S1x32x64x1024
  broadcasts_S1x1x64x1024_S1x32x64x1024 : S1x1x64x1024.Broadcasts S1x32x64x1024
  broadcasts_S1x1x1x1024_S1x32x64x1024 : S1x1x1x1024.Broadcasts S1x32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S512x512.size a
  hwx1_0 : ∀ i : grid1.Coords, EltTy.bits .f32 = 32 ∨ (Rect.block (s := S512x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S512x1024.size a
  hwx1_2 : ∀ i : grid1.Coords, EltTy.bits .f32 = 32 ∨ (Rect.block (s := S512x1024) S256x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S8x256x1024.size a
  hwx2_0 : ∀ i : grid2.Coords, EltTy.bits .f32 = 32 ∨ (Rect.block (s := S8x256x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S8x64x1024.size a
  hwx2_1 : ∀ i : grid2.Coords, EltTy.bits .f32 = 32 ∨ (Rect.block (s := S8x64x1024) S1x64x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x32x64x1024.size a ≤ S8x256x64x1024.size a
  hwx2_3 : ∀ i : grid2.Coords, EltTy.bits .f32 = 32 ∨ (Rect.block (s := S8x256x64x1024) S1x32x64x1024.size (cc2_transform_3 i) (hinb2_3 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_v2) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x32x64x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S512x1024 : Shape := ⟨2, ![512, 1024]⟩
abbrev S8x256x1024 : Shape := ⟨3, ![8, 256, 1024]⟩
abbrev S8x64x1024 : Shape := ⟨3, ![8, 64, 1024]⟩
abbrev S8x256x1x1024 : Shape := ⟨4, ![8, 256, 1, 1024]⟩
abbrev S8x1x64x1024 : Shape := ⟨4, ![8, 1, 64, 1024]⟩
abbrev S8x256x64x1024 : Shape := ⟨4, ![8, 256, 64, 1024]⟩
abbrev S1x1x1x1024 : Shape := ⟨4, ![1, 1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x1024, .f32⟩
  | .hbm, ⟨3, _⟩ => ⟨S1024, .f32⟩
  | .hbm, ⟨4, _⟩ => ⟨S512x1024, .f32⟩
  | .hbm, ⟨5, _⟩ => ⟨S512x1024, .f32⟩
  | .hbm, ⟨6, _⟩ => ⟨S8x256x1024, .f32⟩
  | .hbm, ⟨7, _⟩ => ⟨S8x64x1024, .f32⟩
  | .hbm, ⟨8, _⟩ => ⟨S8x256x1x1024, .f32⟩
  | .hbm, ⟨9, _⟩ => ⟨S8x1x64x1024, .f32⟩
  | .hbm, ⟨10, _⟩ => ⟨S8x256x64x1024, .f32⟩
  | .hbm, ⟨11, _⟩ => ⟨S8x256x64x1024, .f32⟩
  | .hbm, ⟨12, _⟩ => ⟨S8x256x64x1024, .f32⟩
  | .hbm, ⟨13, _⟩ => ⟨S1x1x1x1024, .f32⟩
  | .hbm, ⟨14, _⟩ => ⟨S8x256x64x1024, .f32⟩
  | .hbm, ⟨15, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  slices_S1024x1024_S512x1024_0_0 : S1024x1024.Slices ![0, 0] S512x1024
  slices_S1024x1024_S512x1024_512_0 : S1024x1024.Slices ![512, 0] S512x1024
  bcast_S8x256x1024_S8x256x1x1024_0_1_3 : S8x256x1024.BroadcastsInDim S8x256x1x1024 (![0, 1, 3] : Fin 3 → Fin S8x256x1x1024.rank)
  bcast_S8x64x1024_S8x1x64x1024_0_2_3 : S8x64x1024.BroadcastsInDim S8x1x64x1024 (![0, 2, 3] : Fin 3 → Fin S8x1x64x1024.rank)
  bcast_S8x256x1x1024_S8x256x64x1024_0_1_2_3 : S8x256x1x1024.BroadcastsInDim S8x256x64x1024 (![0, 1, 2, 3] : Fin 4 → Fin S8x256x64x1024.rank)
  bcast_S8x1x64x1024_S8x256x64x1024_0_1_2_3 : S8x1x64x1024.BroadcastsInDim S8x256x64x1024 (![0, 1, 2, 3] : Fin 4 → Fin S8x256x64x1024.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x512_S512x1024_S8x256x1024_2_0_01_1_n_n_wf : DotDims.WF S8x256x512 S512x1024 S8x256x1024 [2] [0] [0, 1] [1] [] []
  dot_S8x64x512_S512x1024_S8x64x1024_2_0_01_1_n_n_wf : DotDims.WF S8x64x512 S512x1024 S8x64x1024 [2] [0] [0, 1] [1] [] []

variable [Facts₀]

def dot_S8x256x512_S512x1024_S8x256x1024_2_0_01_1_n_n : DotDims S8x256x512 S512x1024 S8x256x1024 where
  lhsContracting := [2]
  rhsContracting := [0]
  lhsNonContracting := [0, 1]
  rhsNonContracting := [1]
  lhsBatch := []
  rhsBatch := []
  wf := dot_S8x256x512_S512x1024_S8x256x1024_2_0_01_1_n_n_wf
def dot_S8x64x512_S512x1024_S8x64x1024_2_0_01_1_n_n : DotDims S8x64x512 S512x1024 S8x64x1024 where
  lhsContracting := [2]
  rhsContracting := [0]
  lhsNonContracting := [0, 1]
  rhsNonContracting := [1]
  lhsBatch := []
  rhsBatch := []
  wf := dot_S8x64x512_S512x1024_S8x64x1024_2_0_01_1_n_n_wf

class Facts : Prop extends Facts₀ where

variable [Facts]
-- ==== Proof.Spec.lean ====
/-
  The joint network as one function of its four argument arrays, over the extended reals.

  With a : [8, 256, 512] (audio), l : [8, 64, 512] (label), w : [1024, 1024] (the weight, its first 512 rows
  acting on the audio features and its last 512 rows on the label features) and b : [1024] (the bias), the result
  at (n, t, u, f) is

      (∑ k < 512, a (n, t, k) · w (k, f))  +  (∑ k < 512, l (n, u, k) · w (512 + k, f))  +  b f,

  grouped exactly so: the two projections are added first and the bias last. Both programs compute the two
  projections as matrix products and then add; the kernel flattens the leading two axes first (rows 256·n + t of a
  [2048, 512] matrix, rows 64·n + u of a [512, 512] one), which changes where an entry is stored and not what
  it is. The pieces below are the same function cut where the kernel's three launches cut it.
-/
import Idealize.ShloMosaic.PureOps.Ideal
import Idealize.ShloMosaic.Lib.ValueIdx

noncomputable section

open scoped BigOperators

namespace Cert.Joint

open Idealize.ShloMosaic Idealize.ShloMosaic.ValueIdx

/-- Rows 0 … 511 of the weight: the audio half. -/
def wAudio (w : (⟨2, ![1024, 1024]⟩ : Shape).Idx → EReal) : (⟨2, ![512, 1024]⟩ : Shape).Idx → EReal :=
  fun j => w (ix2 (⟨(j 0).val, by have := idx2_lt0 j; omega⟩ : Fin 1024) (j 1))

/-- Rows 512 … 1023 of the weight: the label half. -/
def wLabel (w : (⟨2, ![1024, 1024]⟩ : Shape).Idx → EReal) : (⟨2, ![512, 1024]⟩ : Shape).Idx → EReal :=
  fun j => w (ix2 (⟨512 + (j 0).val, by have := idx2_lt0 j; omega⟩ : Fin 1024) (j 1))

/-- A [2048, 512] matrix times a [512, 1024] one: entry (r, f) is ∑ k, x (r, k) · v (k, f). -/
def prodAudio (x : (⟨2, ![2048, 512]⟩ : Shape).Idx → EReal) (v : (⟨2, ![512, 1024]⟩ : Shape).Idx → EReal) :
    (⟨2, ![2048, 1024]⟩ : Shape).Idx → EReal :=
  fun i => ∑ k : Fin 512, x (ix2 (i 0) k) * v (ix2 k (i 1))

/-- A [512, 512] matrix times a [512, 1024] one: entry (r, f) is ∑ k, x (r, k) · v (k, f). -/
def prodLabel (x : (⟨2, ![512, 512]⟩ : Shape).Idx → EReal) (v : (⟨2, ![512, 1024]⟩ : Shape).Idx → EReal) :
    (⟨2, ![512, 1024]⟩ : Shape).Idx → EReal :=
  fun i => ∑ k : Fin 512, x (ix2 (i 0) k) * v (ix2 k (i 1))

/-- The broadcast sum over the (t, u) grid: (p (n, t, f) + q (n, u, f)) + c (0, f). -/
def gridSum (p : (⟨3, ![8, 256, 1024]⟩ : Shape).Idx → EReal) (q : (⟨3, ![8, 64, 1024]⟩ : Shape).Idx → EReal)
    (c : (⟨2, ![1, 1024]⟩ : Shape).Idx → EReal) : (⟨4, ![8, 256, 64, 1024]⟩ : Shape).Idx → EReal :=
  fun i => (p (ix3 (i 0) (i 1) (i 3)) + q (ix3 (i 0) (i 2) (i 3))) + c (ix2 (0 : Fin 1) (i 3))

/-- The whole network: entry (n, t, u, f) of the result from the four argument arrays. -/
def joint (a : (⟨3, ![8, 256, 512]⟩ : Shape).Idx → EReal) (l : (⟨3, ![8, 64, 512]⟩ : Shape).Idx → EReal)
    (w : (⟨2, ![1024, 1024]⟩ : Shape).Idx → EReal) (b : (⟨1, ![1024]⟩ : Shape).Idx → EReal) :
    (⟨4, ![8, 256, 64, 1024]⟩ : Shape).Idx → EReal :=
  fun i => ((∑ k : Fin 512, a (ix3 (i 0) (i 1) k) * wAudio w (ix2 k (i 3)))
      + (∑ k : Fin 512, l (ix3 (i 0) (i 2) k) * wLabel w (ix2 k (i 3))))
    + b (ix1 (i 3))

end Cert.Joint

end
-- ==== Proof.ProdRegions.lean ====
/-
  The two matrix products of the joint network, read off their launches.

  The first launch multiplies a [2048, 512] matrix by a [512, 1024] one in eight steps: step t takes rows
  256 t … 256 t + 255 of the left matrix and the whole right matrix, and writes rows 256 t … 256 t + 255 of the
  result. The second launch does the same for a [512, 512] left matrix in two steps. Entry (p, q) of a step's
  block is ∑ k < 512, left (256 t + p, k) · right (k, q): the narrowing of the operands to bf16 is the identity over
  the extended reals and the accumulator starts at zero. The row blocks tile the result, so after a launch the
  result array is the product of the two matrices the launch found, whatever they are.
-/
import proofs.«126191_j11003706212671_1_alg».proof.Proof.Gen.KernelIdeal.Frame
import proofs.«126191_j11003706212671_1_alg».proof.Proof.Spec
import Idealize.ShloMosaic.Lib.Pipeline.Value
import Idealize.ShloMosaic.Lib.ValueIdx
import Idealize.ShloMosaic.PureOps.Ideal.Laws

noncomputable section

open scoped BigOperators

/-! # The block product at an entry

Both matrix-product launches run the same body on a [256, 512] block of the left matrix and the whole
[512, 1024] right matrix: the two shape casts keep the shape, the narrowing to bf16 is the identity over the
extended reals, and the matrix unit adds, onto a zero splat, the sum over the one contracted axis. -/

namespace Cert.KernelIdeal.BlockProduct

open Idealize.ShloMosaic Idealize.ShloMosaic.TcCoe Idealize.SL.Sem Cert.KernelIdeal Cert.KernelIdeal.Gen

/-- The left operand's index: axis 0 is the output's row (not contracted). -/
theorem lhs_axis0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
/-- The left operand's index: axis 1 is the contracted one. -/
theorem lhs_axis1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
/-- The right operand's index: axis 0 is the contracted one. -/
theorem rhs_axis0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
/-- The right operand's index: axis 1 is the output's column (not contracted). -/
theorem rhs_axis1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-- Entry (p, q) of the body's result: ∑ k, x0 (p, k) · x1 (k, q). -/
theorem k0_entry (x0 : Vec Ideal S256x512 .f32) (x1 : Vec Ideal S512x1024 .f32) (p : Fin 256) (q : Fin 1024) :
    k0_pay1 x0 x1 (ValueIdx.ix2 p q) = ∑ k : Fin 512, x0 (ValueIdx.ix2 p k) * x1 (ValueIdx.ix2 k q) := by
  unfold k0_pay1
  simp only [shapeCast_self, matmul]
  rw [Ideal.matmul_constant_zero_apply, ← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have el : dot_S256x512_S512x1024_S256x1024_1_0_0_1_n_n.lhsIdx (ValueIdx.ix2 p q) ((ValueIdx.contrEquiv1 dot_S256x512_S512x1024_S256x1024_1_0_0_1_n_n 512 rfl rfl).symm k) = ValueIdx.ix2 p k := funext fun a => Fin.ext (by
    match a with
    | ⟨0, _⟩ => exact lhs_axis0 _ _
    | ⟨1, _⟩ => exact (lhs_axis1 _ _).trans hk)
  have er : dot_S256x512_S512x1024_S256x1024_1_0_0_1_n_n.rhsIdx (ValueIdx.ix2 p q) ((ValueIdx.contrEquiv1 dot_S256x512_S512x1024_S256x1024_1_0_0_1_n_n 512 rfl rfl).symm k) = ValueIdx.ix2 k q := funext fun a => Fin.ext (by
    match a with
    | ⟨0, _⟩ => exact (rhs_axis0 _ _).trans hk
    | ⟨1, _⟩ => exact rhs_axis1 _ _)
  rw [el, er]
  rfl

/-- The second launch's body is the first's. -/
theorem k1_eq_k0 (x0 : Vec Ideal S256x512 .f32) (x1 : Vec Ideal S512x1024 .f32) : k1_pay1 x0 x1 = k0_pay1 x0 x1 := rfl

end Cert.KernelIdeal.BlockProduct

/-! # The first launch: [2048, 512] times [512, 1024], eight row blocks of 256 rows -/

namespace Cert.KernelIdeal.Region0
open Idealize.ShloMosaic Idealize.ShloMosaic.TcCoe Idealize.SL.Sem Cert.KernelIdeal Cert.KernelIdeal.Gen
open Idealize.ShloMosaic.ValueIdx

/-- The body's accesses start at the origin of their buffers. -/
theorem origin_zero : (![0, 0] : Fin 2 → Nat) = fun _ => 0 := funext fun a => by fin_cases a <;> rfl

/-- The block indices over the grid: point t reads row block t of the left matrix, the whole right matrix,
    and writes row block t of the product. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The body's result at any index of its [256, 1024] block. -/
theorem body_apply (x0 : Vec Ideal S256x512 .f32) (x1 : Vec Ideal S512x1024 .f32) (j : S256x1024.Idx) :
    k0_pay1 x0 x1 j = ∑ k : Fin 512, x0 (ix2 (j 0) k) * x1 (ix2 k (j 1)) := by
  obtain ⟨p, q, rfl⟩ : ∃ (p : Fin 256) (q : Fin 1024), j = ix2 p q := ⟨j 0, j 1, eq_ix2 j⟩
  exact BlockProduct.k0_entry x0 x1 p q

/-- Point t's block of the left matrix is its rows 256 t … 256 t + 255: entry y of the block is the entry of
    the matrix at row 256 t + y 0, column y 1. -/
theorem left_block_apply (c : Dev nD) (A : Buf (Elt Ideal) ((c : Thread nD τ).loc main_v2)) (t : Fin cfg0.N)
    (y : S256x512.Idx) (i : S2048x512.Idx) (h0 : (i 0).val = 256 * t.val + (y 0).val) (h1 : (i 1).val = (y 1).val) :
    (((cfg0.win 0).blk t).view.read (Elt Ideal) A : Vec Ideal S256x512 .f32) y = (A : S2048x512.Idx → EReal) i := by
  obtain ⟨e0, e1, -⟩ := index_facts t
  rw [View.read_apply]
  show (A : S2048x512.Idx → EReal) _ = A i
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 512 + 1 * (y 1).val = (i 1).val; rw [e1, h1]; omega

/-- Every point's block of the right matrix is the whole matrix. -/
theorem right_block_apply (c : Dev nD) (A : Buf (Elt Ideal) ((c : Thread nD τ).loc main_v0)) (t : Fin cfg0.N)
    (y : S512x1024.Idx) :
    (((cfg0.win 1).blk t).view.read (Elt Ideal) A : Vec Ideal S512x1024 .f32) y = (A : S512x1024.Idx → EReal) y := by
  obtain ⟨-, -, e2, e3, -⟩ := index_facts t
  rw [View.read_apply]
  show (A : S512x1024.Idx → EReal) _ = A y
  congr 1
  funext a
  apply Fin.ext
  match a with
  | ⟨0, _⟩ => show win0_1.index t (0 : Fin 2) * 512 + 1 * (y 0).val = (y 0).val; rw [e2]; omega
  | ⟨1, _⟩ => show win0_1.index t (1 : Fin 2) * 1024 + 1 * (y 1).val = (y 1).val; rw [e3]; omega

/-- What point t writes back is row block t of the product of the two matrices as the launch finds them. -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Joint.prodAudio (V c main_v2) (V c main_v0)) := by
  show (cfg0.win 2).cut (grid0.coords t) ((dat0 V c).after 2 t) = _
  rw [after0_2]
  unfold out0_2
  rw [View.canon_unit_zero origin_zero]
  simp only [View.ld_unit_zero (S := S256x512) origin_zero, View.ld_unit_zero (S := S512x1024) origin_zero]
  obtain ⟨-, -, -, -, e4, e5⟩ := index_facts t
  funext j
  show k0_pay1 (iblk0 V c 0 t) (iblk0 V c 1 t) j = Cert.Joint.prodAudio (V c main_v2) (V c main_v0) (((cfg0.win 2).blk t).view.emb j)
  refine (body_apply _ _ j).trans ?_
  unfold Cert.Joint.prodAudio
  refine Finset.sum_congr rfl fun k _ => ?_
  congr 1
  · refine left_block_apply c (V c main_v2) t _ _ ?_ rfl
    show win0_2.index t (0 : Fin 2) * 256 + 1 * (j 0).val = 256 * t.val + (j 0).val
    rw [e4]; omega
  · refine (right_block_apply c (V c main_v0) t _).trans ?_
    congr 1
    funext a
    apply Fin.ext
    match a with
    | ⟨0, _⟩ => rfl
    | ⟨1, _⟩ => show (j 1).val = win0_2.index t (1 : Fin 2) * 1024 + 1 * (j 1).val; rw [e5]; omega

/-- An index of the product is in point t's block iff each coordinate is in the block's range on its axis. -/
theorem mem_blk (t : Fin cfg0.N) (i : S2048x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v4).slice (win0_2.rect t)).set ↔ _
  rw [View.set_slice_whole, Rect.mem_set_unit]
  exact Iff.rfl

/-- The eight row blocks fill the product: row r is in the block of point r / 256. -/
theorem cover (i : S2048x1024.Idx) :
    ∃ t : Fin cfg0.N, (cfg0.win 2).flush t = true ∧ i ∈ ((cfg0.win 2).blk t).view.set := by
  have hi0 : (i 0).val < 2048 := (i 0).isLt
  have hi1 : (i 1).val < 1024 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, e4, e5⟩ := index_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    rw [e4, ht]; omega
  | ⟨1, _⟩ =>
    show win0_2.index t (1 : Fin 2) * 1024 ≤ (i 1).val ∧ (i 1).val < win0_2.index t (1 : Fin 2) * 1024 + 1024
    rw [e5]; omega

/-- After the launch the result array holds the product of the two matrices the launch found. -/
theorem arr_final (V : (c : Dev nD) → (b : Ref sig .tc) → Buf (Elt Ideal) ((c : Thread nD τ).loc b)) (c : Dev nD) :
    (dat0 (F := Ideal) V c).arrAt 2 cfg0.N = Cert.Joint.prodAudio (V c main_v2) (V c main_v0) :=
  (dat0 V c).arrAt_eq_of_cover 2 _ (fun t _ => flushed_eq V c t) cover

end Cert.KernelIdeal.Region0

/-! # The second launch: [512, 512] times [512, 1024], two row blocks of 256 rows -/

namespace Cert.KernelIdeal.Region1
open Idealize.ShloMosaic Idealize.ShloMosaic.TcCoe Idealize.SL.Sem Cert.KernelIdeal Cert.KernelIdeal.Gen
open Idealize.ShloMosaic.ValueIdx

/-- The body's accesses start at the origin of their buffers. -/
theorem origin_zero : (![0, 0] : Fin 2 → Nat) = fun _ => 0 := funext fun a => by fin_cases a <;> rfl

/-- The block indices over the grid: point t reads row block t of the left matrix, the whole right matrix,
    and writes row block t of the product. -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The body's result at any index of its [256, 1024] block: the same body as the first launch's. -/
theorem body_apply (x0 : Vec Ideal S256x512 .f32) (x1 : Vec Ideal S512x1024 .f32) (j : S256x1024.Idx) :
    k1_pay1 x0 x1 j = ∑ k : Fin 512, x0 (ix2 (j 0) k) * x1 (ix2 k (j 1)) := by
  rw [BlockProduct.k1_eq_k0]
  exact Region0.body_apply x0 x1 j

/-- Point t's block of the left matrix is its rows 256 t … 256 t + 255: entry y of the block is the entry of
    the matrix at row 256 t + y 0, column y 1. -/
theorem left_block_apply (c : Dev nD) (A : Buf (Elt Ideal) ((c : Thread nD τ).loc main_v3)) (t : Fin cfg1.N)
    (y : S256x512.Idx) (i : S512x512.Idx) (h0 : (i 0).val = 256 * t.val + (y 0).val) (h1 : (i 1).val = (y 1).val) :
    (((cfg1.win 0).blk t).view.read (Elt Ideal) A : Vec Ideal S256x512 .f32) y = (A : S512x512.Idx → EReal) i := by
  obtain ⟨e0, e1, -⟩ := index_facts t
  rw [View.read_apply]
  show (A : S512x512.Idx → EReal) _ = A i
  congr 1
  funext a
  apply Fin.ext
  match a with
  | ⟨0, _⟩ => show win1_0.index t (0 : Fin 2) * 256 + 1 * (y 0).val = (i 0).val; rw [e0, h0]; omega
  | ⟨1, _⟩ => show win1_0.index t (1 : Fin 2) * 512 + 1 * (y 1).val = (i 1).val; rw [e1, h1]; omega

/-- Every point's block of the right matrix is the whole matrix. -/
theorem right_block_apply (c : Dev nD) (A : Buf (Elt Ideal) ((c : Thread nD τ).loc main_v1)) (t : Fin cfg1.N)
    (y : S512x1024.Idx) :
    (((cfg1.win 1).blk t).view.read (Elt Ideal) A : Vec Ideal S512x1024 .f32) y = (A : S512x1024.Idx → EReal) y := by
  obtain ⟨-, -, e2, e3, -⟩ := index_facts t
  rw [View.read_apply]
  show (A : S512x1024.Idx → EReal) _ = A y
  congr 1
  funext a
  apply Fin.ext
  match a with
  | ⟨0, _⟩ => show win1_1.index t (0 : Fin 2) * 512 + 1 * (y 0).val = (y 0).val; rw [e2]; omega
  | ⟨1, _⟩ => show win1_1.index t (1 : Fin 2) * 1024 + 1 * (y 1).val = (y 1).val; rw [e3]; omega

/-- What point t writes back is row block t of the product of the two matrices as the launch finds them. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Cert.Joint.prodLabel (V c main_v3) (V c main_v1)) := by
  show (cfg1.win 2).cut (grid1.coords t) ((dat1 V c).after 2 t) = _
  rw [after1_2]
  unfold out1_2
  rw [View.canon_unit_zero origin_zero]
  simp only [View.ld_unit_zero (S := S256x512) origin_zero, View.ld_unit_zero (S := S512x1024) origin_zero]
  obtain ⟨-, -, -, -, e4, e5⟩ := index_facts t
  funext j
  show k1_pay1 (iblk1 V c 0 t) (iblk1 V c 1 t) j = Cert.Joint.prodLabel (V c main_v3) (V c main_v1) (((cfg1.win 2).blk t).view.emb j)
  refine (body_apply _ _ j).trans ?_
  unfold Cert.Joint.prodLabel
  refine Finset.sum_congr rfl fun k _ => ?_
  congr 1
  · refine left_block_apply c (V c main_v3) t _ _ ?_ rfl
    show win1_2.index t (0 : Fin 2) * 256 + 1 * (j 0).val = 256 * t.val + (j 0).val
    rw [e4]; omega
  · refine (right_block_apply c (V c main_v1) t _).trans ?_
    congr 1
    funext a
    apply Fin.ext
    match a with
    | ⟨0, _⟩ => rfl
    | ⟨1, _⟩ => show (j 1).val = win1_2.index t (1 : Fin 2) * 1024 + 1 * (j 1).val; rw [e5]; omega

/-- An index of the product is in point t's block iff each coordinate is in the block's range on its axis. -/
theorem mem_blk (t : Fin cfg1.N) (i : S512x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v5).slice (win1_2.rect t)).set ↔ _
  rw [View.set_slice_whole, Rect.mem_set_unit]
  exact Iff.rfl

/-- The two row blocks fill the product: row r is in the block of point r / 256. -/
theorem cover (i : S512x1024.Idx) :
    ∃ t : Fin cfg1.N, (cfg1.win 2).flush t = true ∧ i ∈ ((cfg1.win 2).blk t).view.set := by
  have hi0 : (i 0).val < 512 := (i 0).isLt
  have hi1 : (i 1).val < 1024 := (i 1).isLt
  obtain ⟨t, ht⟩ : ∃ t : Fin cfg1.N, t.val = (i 0).val / 256 :=
    ⟨⟨(i 0).val / 256, by show (i 0).val / 256 < grid1.N; rw [N_1]; omega⟩, rfl⟩
  obtain ⟨-, -, -, -, e4, e5⟩ := index_facts t
  refine ⟨t, flush1_2 t, ?_⟩
  rw [mem_blk]
  intro a
  match a with
  | ⟨0, _⟩ =>
    show win1_2.index t (0 : Fin 2) * 256 ≤ (i 0).val ∧ (i 0).val < win1_2.index t (0 : Fin 2) * 256 + 256
    rw [e4, ht]; omega
  | ⟨1, _⟩ =>
    show win1_2.index t (1 : Fin 2) * 1024 ≤ (i 1).val ∧ (i 1).val < win1_2.index t (1 : Fin 2) * 1024 + 1024
    rw [e5]; omega

/-- After the launch the result array holds the product of the two matrices the launch found. -/
theorem arr_final (V : (c : Dev nD) → (b : Ref sig .tc) → Buf (Elt Ideal) ((c : Thread nD τ).loc b)) (c : Dev nD) :
    (dat1 (F := Ideal) V c).arrAt 2 cfg1.N = Cert.Joint.prodLabel (V c main_v3) (V c main_v1) :=
  (dat1 V c).arrAt_eq_of_cover 2 _ (fun t _ => flushed_eq V c t) cover

end Cert.KernelIdeal.Region1

end
-- ==== Proof.GridRegion.lean ====
/-
  The broadcast-add launch, read as one function of the three arrays it finds.

  The launch runs over an 8 × 8 grid of points (n, s). At each point the body adds three blocks entry by entry:
  a [1, 32, 1024] block of p : [8, 256, 1024], a [1, 64, 1024] block of q : [8, 64, 1024] and the row b : [1, 1024],
  each repeated along the axes it lacks, grouped (p + q) + b. The [1, 32, 64, 1024] results tile the output
  [8, 256, 64, 1024], so the output ends holding, at (n, t, u, f),

      (p (n, t, f) + q (n, u, f)) + b (0, f),

  whatever p, q and b hold when the launch starts.
-/
import proofs.«126191_j11003706212671_1_alg».proof.Proof.Gen.KernelIdeal.Frame
import proofs.«126191_j11003706212671_1_alg».proof.Proof.Spec
import Idealize.ShloMosaic.Lib.Pipeline.Value
import Idealize.ShloMosaic.Lib.ValueIdx
import Idealize.ShloMosaic.Lib.ValueLayout
noncomputable section
namespace Cert.KernelIdeal.Region2
open Idealize.ShloMosaic Idealize.ShloMosaic.TcCoe Idealize.SL.Sem Cert.KernelIdeal Cert.KernelIdeal.Gen
open Idealize.ShloMosaic.ValueIdx

/-! ## The layout operations of the body, read at an index

The body views the audio block [1, 32, 1024] as [1, 32, 1, 1024], the label block [1, 64, 1024] as [1, 1, 64, 1024] and
the bias row [1, 1024] as [1, 1, 1, 1024]; a view keeps the row-major position of an entry, and a unit axis contributes
nothing to that position. Each view is then repeated along its unit axes up to [1, 32, 64, 1024]: the result at
(z, t, u, f) is the view's entry with 0 on the repeated axes. -/

section Layout
variable {α : Type}

/-- The audio block as [1, 32, 1, 1024]: entry (z, t, w, f) is entry (z, t, f) of the block. -/
theorem view_audio_apply (x : S1x32x1024.Idx → α) (h : S1x32x1024.ShapeCasts S1x32x1x1024)
    (z : Fin 1) (t : Fin 32) (w : Fin 1) (f : Fin 1024) :
    shapeCast S1x32x1x1024 x h (ix4 z t w f) = x (ix3 z t f) :=
  shapeCast_apply x h _ _ (by
    have hw : w.val = 0 := by omega
    rw [Shape.rowMajor_val_three, Shape.rowMajor_val_four]
    show (z.val * 32 + t.val) * 1024 + f.val = ((z.val * 32 + t.val) * 1 + w.val) * 1024 + f.val
    omega)

/-- The label block as [1, 1, 64, 1024]: entry (z, w, u, f) is entry (z, u, f) of the block. -/
theorem view_label_apply (x : S1x64x1024.Idx → α) (h : S1x64x1024.ShapeCasts S1x1x64x1024)
    (z : Fin 1) (w : Fin 1) (u : Fin 64) (f : Fin 1024) :
    shapeCast S1x1x64x1024 x h (ix4 z w u f) = x (ix3 z u f) :=
  shapeCast_apply x h _ _ (by
    have hw : w.val = 0 := by omega
    rw [Shape.rowMajor_val_three, Shape.rowMajor_val_four]
    show (z.val * 64 + u.val) * 1024 + f.val = ((z.val * 1 + w.val) * 64 + u.val) * 1024 + f.val
    omega)

/-- The bias row as [1, 1, 1, 1024]: entry (z, w, w', f) is entry (z, f) of the row. -/
theorem view_bias_apply (x : S1x1024.Idx → α) (h : S1x1024.ShapeCasts S1x1x1x1024)
    (z : Fin 1) (w w' : Fin 1) (f : Fin 1024) :
    shapeCast S1x1x1x1024 x h (ix4 z w w' f) = x (ix2 z f) :=
  shapeCast_apply x h _ _ (by
    have hw : w.val = 0 := by omega
    have hw' : w'.val = 0 := by omega
    rw [Shape.rowMajor_val_two, Shape.rowMajor_val_four]
    show z.val * 1024 + f.val = ((z.val * 1 + w.val) * 1 + w'.val) * 1024 + f.val
    omega)

/-- The audio view repeated along u: entry (z, t, u, f) is the view's (z, t, 0, f). -/
theorem spread_audio_apply (x : S1x32x1x1024.Idx → α) (h : S1x32x1x1024.Broadcasts S1x32x64x1024)
    (z : Fin 1) (t : Fin 32) (u : Fin 64) (f : Fin 1024) :
    broadcastTo S1x32x64x1024 x h (ix4 z t u f) = x (ix4 z t (0 : Fin 1) f) := by
  refine broadcastTo_apply x h (ix4 z t u f) (ix4 z t (0 : Fin 1) f) fun ax => ?_
  match ax with
  | ⟨0, _⟩ => show z.val = 0; omega
  | ⟨1, _⟩ => rfl
  | ⟨2, _⟩ => rfl
  | ⟨3, _⟩ => rfl

/-- The label view repeated along t: entry (z, t, u, f) is the view's (z, 0, u, f). -/
theorem spread_label_apply (x : S1x1x64x1024.Idx → α) (h : S1x1x64x1024.Broadcasts S1x32x64x1024)
    (z : Fin 1) (t : Fin 32) (u : Fin 64) (f : Fin 1024) :
    broadcastTo S1x32x64x1024 x h (ix4 z t u f) = x (ix4 z (0 : Fin 1) u f) := by
  refine broadcastTo_apply x h (ix4 z t u f) (ix4 z (0 : Fin 1) u f) fun ax => ?_
  match ax with
  | ⟨0, _⟩ => show z.val = 0; omega
  | ⟨1, _⟩ => rfl
  | ⟨2, _⟩ => rfl
  | ⟨3, _⟩ => rfl

/-- The bias view repeated along t and u: entry (z, t, u, f) is the view's (z, 0, 0, f). -/
theorem spread_bias_apply (x : S1x1x1x1024.Idx → α) (h : S1x1x1x1024.Broadcasts S1x32x64x1024)
    (z : Fin 1) (t : Fin 32) (u : Fin 64) (f : Fin 1024) :
    broadcastTo S1x32x64x1024 x h (ix4 z t u f) = x (ix4 z (0 : Fin 1) (0 : Fin 1) f) := by
  refine broadcastTo_apply x h (ix4 z t u f) (ix4 z (0 : Fin 1) (0 : Fin 1) f) fun ax => ?_
  match ax with
  | ⟨0, _⟩ => show z.val = 0; omega
  | ⟨1, _⟩ => rfl
  | ⟨2, _⟩ => rfl
  | ⟨3, _⟩ => rfl

end Layout

/-! ## The body's payload at an index -/

/-- What the body stores at (z, t, u, f) of its [1, 32, 64, 1024] block: the audio block's (z, t, f) plus the label
    block's (z, u, f), and then the bias row's (z, f). -/
theorem pay_apply (x0 : Vec Ideal S1x32x1024 .f32) (x1 : Vec Ideal S1x64x1024 .f32) (x2 : Vec Ideal S1x1024 .f32)
    (z : Fin 1) (t : Fin 32) (u : Fin 64) (f : Fin 1024) :
    k2_pay1 x0 x1 x2 (ix4 z t u f) = (x0 (ix3 z t f) + x1 (ix3 z u f)) + x2 (ix2 z f) := by
  unfold k2_pay1
  rw [addf_apply, addf_apply, spread_audio_apply, spread_label_apply, spread_bias_apply,
    view_audio_apply, view_label_apply, view_bias_apply, shapeCast_self, shapeCast_self, shapeCast_self]

/-! ## The grid of launches

The launch runs over 8 × 8 points (n, s). Point (n, s) reads rows 32 s … 32 s + 31 of the audio projection of batch n,
the whole label projection of batch n and the bias row, and writes rows 32 s … 32 s + 31 of the result of batch n. -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Block indices at a point, decided over the 64 points: the audio block follows the result's block on the batch
    and row axes, the label block on the batch axis only, the bias block stays, and every other block index is 0. -/
theorem grid_index : ∀ t : Fin cfg2.N,
    win2_0.index t (0 : Fin 3) = win2_3.index t (0 : Fin 4)
    ∧ win2_0.index t (1 : Fin 3) = win2_3.index t (1 : Fin 4)
    ∧ win2_0.index t (2 : Fin 3) = 0
    ∧ win2_1.index t (0 : Fin 3) = win2_3.index t (0 : Fin 4)
    ∧ win2_1.index t (1 : Fin 3) = 0
    ∧ win2_1.index t (2 : Fin 3) = 0
    ∧ win2_2.index t (0 : Fin 2) = 0
    ∧ win2_2.index t (1 : Fin 2) = 0
    ∧ win2_3.index t (2 : Fin 4) = 0
    ∧ win2_3.index t (3 : Fin 4) = 0
    ∧ win2_3.index t (0 : Fin 4) ≤ 7
    ∧ win2_3.index t (1 : Fin 4) ≤ 7 :=
  (by decide +kernel : ∀ t : Fin grid2.N, _)

/-- Every pair (n, s) is the result's block index at some point. -/
theorem grid_onto : ∀ (n s : Fin 8), ∃ t : Fin cfg2.N, win2_3.index t = ![n.val, s.val, 0, 0] :=
  (by decide +kernel : ∀ (n s : Fin 8), ∃ t : Fin grid2.N, win2_3.index t = ![n.val, s.val, 0, 0])

section Region
variable (V : (c : Dev nD) → (b : Ref sig .tc) → Buf (Elt Ideal) ((c : Thread nD τ).loc b))

/-! ## What a point writes back -/

/-- Point t writes its block of the grid sum of the three arrays the launch finds. An entry (z, p, u, f) of the
    block sits at (index₀ + z, 32 · index₁ + p, u, f) of the result; the audio entry (z, p, f) of the point's audio block
    sits at (index₀ + z, 32 · index₁ + p, f), the label entry (z, u, f) at (index₀ + z, u, f), the bias entry at (0, f). -/
theorem flushed_eq (c : Dev nD) (t : Fin cfg2.N) :
    (dat2 (F := Ideal) V c).flushed 3 t
      = ((cfg2.win 3).blk t).view.read (Elt Ideal) (Cert.Joint.gridSum (V c main_v6) (V c main_v7) (V c main_v8)) := by
  show (cfg2.win 3).cut (grid2.coords t) ((dat2 V c).after 3 t) = _
  rw [after2_3]
  unfold out2_3
  rw [View.canon_unit_zero zeros4]
  simp only [View.ld_unit_zero (S := S1x32x1024) zeros3, View.ld_unit_zero (S := S1x64x1024) zeros3,
    View.ld_unit_zero (S := S1x1024) zeros2]
  obtain ⟨e00, e01, e02, e10, e11, e12, e20, e21, e32, e33, b0, b1⟩ := grid_index t
  funext j
  obtain ⟨z, p, u, f, rfl⟩ : ∃ (z : Fin 1) (p : Fin 32) (u : Fin 64) (f : Fin 1024), j = ix4 z p u f :=
    ⟨j 0, j 1, j 2, j 3, eq_ix4 j⟩
  show k2_pay1 (iblk2 V c 0 t) (iblk2 V c 1 t) (iblk2 V c 2 t) (ix4 z p u f)
    = Cert.Joint.gridSum (V c main_v6) (V c main_v7) (V c main_v8) (((cfg2.win 3).blk t).view.emb (ix4 z p u f))
  have ha : iblk2 V c 0 t (ix3 z p f)
      = V c main_v6 (ix3 (((cfg2.win 3).blk t).view.emb (ix4 z p u f) 0) (((cfg2.win 3).blk t).view.emb (ix4 z p u f) 1)
          (((cfg2.win 3).blk t).view.emb (ix4 z p u f) 3)) := by
    show V c main_v6 (((cfg2.win 0).blk t).view.emb (ix3 z p f)) = _
    refine congrArg (V c main_v6) (funext fun a => Fin.ext ?_)
    match a with
    | ⟨0, _⟩ => show win2_0.index t (0 : Fin 3) * 1 + 1 * z.val = win2_3.index t (0 : Fin 4) * 1 + 1 * z.val; omega
    | ⟨1, _⟩ => show win2_0.index t (1 : Fin 3) * 32 + 1 * p.val = win2_3.index t (1 : Fin 4) * 32 + 1 * p.val; omega
    | ⟨2, _⟩ => show win2_0.index t (2 : Fin 3) * 1024 + 1 * f.val = win2_3.index t (3 : Fin 4) * 1024 + 1 * f.val; omega
  have hl : iblk2 V c 1 t (ix3 z u f)
      = V c main_v7 (ix3 (((cfg2.win 3).blk t).view.emb (ix4 z p u f) 0) (((cfg2.win 3).blk t).view.emb (ix4 z p u f) 2)
          (((cfg2.win 3).blk t).view.emb (ix4 z p u f) 3)) := by
    show V c main_v7 (((cfg2.win 1).blk t).view.emb (ix3 z u f)) = _
    refine congrArg (V c main_v7) (funext fun a => Fin.ext ?_)
    match a with
    | ⟨0, _⟩ => show win2_1.index t (0 : Fin 3) * 1 + 1 * z.val = win2_3.index t (0 : Fin 4) * 1 + 1 * z.val; omega
    | ⟨1, _⟩ => show win2_1.index t (1 : Fin 3) * 64 + 1 * u.val = win2_3.index t (2 : Fin 4) * 64 + 1 * u.val; omega
    | ⟨2, _⟩ => show win2_1.index t (2 : Fin 3) * 1024 + 1 * f.val = win2_3.index t (3 : Fin 4) * 1024 + 1 * f.val; omega
  have hb : iblk2 V c 2 t (ix2 z f)
      = V c main_v8 (ix2 (0 : Fin 1) (((cfg2.win 3).blk t).view.emb (ix4 z p u f) 3)) := by
    show V c main_v8 (((cfg2.win 2).blk t).view.emb (ix2 z f)) = _
    refine congrArg (V c main_v8) (funext fun a => Fin.ext ?_)
    match a with
    | ⟨0, _⟩ => show win2_2.index t (0 : Fin 2) * 1 + 1 * z.val = 0; omega
    | ⟨1, _⟩ => show win2_2.index t (1 : Fin 2) * 1024 + 1 * f.val = win2_3.index t (3 : Fin 4) * 1024 + 1 * f.val; omega
  rw [pay_apply, ha, hl, hb]
  rfl

/-! ## From blocks to the array -/

/-- An index of the result is in point t's block iff each coordinate is in the block's range on its axis. -/
theorem mem_blk (t : Fin cfg2.N) (i : S8x256x64x1024.Idx) :
    i ∈ ((cfg2.win 3).blk t).view.set ↔ ∀ a : Fin 4, win2_3.index t a * S1x32x64x1024.size a ≤ (i a).val
      ∧ (i a).val < win2_3.index t a * S1x32x64x1024.size a + S1x32x64x1024.size a := by
  show i ∈ ((View.whole main_v9).slice (win2_3.rect t)).set ↔ _
  rw [View.set_slice_whole, Rect.mem_set_unit]
  exact Iff.rfl

/-- The blocks fill the result: (n, r, u, f) is in the block of the point whose block index is (n, r / 32, 0, 0). -/
theorem covered (i : S8x256x64x1024.Idx) :
    ∃ t : Fin cfg2.N, (cfg2.win 3).flush t = true ∧ i ∈ ((cfg2.win 3).blk t).view.set := by
  have h0 : (i 0).val < 8 := (i 0).isLt
  have h1 : (i 1).val < 256 := (i 1).isLt
  have h2 : (i 2).val < 64 := (i 2).isLt
  have h3 : (i 3).val < 1024 := (i 3).isLt
  obtain ⟨t, ht⟩ := grid_onto ⟨(i 0).val, h0⟩ ⟨(i 1).val / 32, by omega⟩
  have q0 : win2_3.index t (0 : Fin 4) = (i 0).val := congrFun ht 0
  have q1 : win2_3.index t (1 : Fin 4) = (i 1).val / 32 := congrFun ht 1
  have q2 : win2_3.index t (2 : Fin 4) = 0 := congrFun ht 2
  have q3 : win2_3.index t (3 : Fin 4) = 0 := congrFun ht 3
  refine ⟨t, flush2_3 t, ?_⟩
  rw [mem_blk]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 32 ≤ (i 1).val ∧ (i 1).val < win2_3.index t (1 : Fin 4) * 32 + 32; omega
  | ⟨2, _⟩ => show win2_3.index t (2 : Fin 4) * 64 ≤ (i 2).val ∧ (i 2).val < win2_3.index t (2 : Fin 4) * 64 + 64; omega
  | ⟨3, _⟩ => show win2_3.index t (3 : Fin 4) * 1024 ≤ (i 3).val ∧ (i 3).val < win2_3.index t (3 : Fin 4) * 1024 + 1024; omega

end Region

/-- THE RESULT ARRAY after the launch: the grid sum (p (n, t, f) + q (n, u, f)) + b (0, f) of the three arrays the
    launch finds, whatever they hold. -/
theorem arr_final (V : (c : Dev nD) → (b : Ref sig .tc) → Buf (Elt Ideal) ((c : Thread nD τ).loc b)) (c : Dev nD) :
    (dat2 (F := Ideal) V c).arrAt 3 cfg2.N = Cert.Joint.gridSum (V c main_v6) (V c main_v7) (V c main_v8) :=
  (dat2 V c).arrAt_eq_of_cover 3 _ (fun t _ => flushed_eq V c t) covered

end Cert.KernelIdeal.Region2
end
-- ==== Proof.KernelValue.lean ====
/-
  What the idealized kernel program leaves in its result array, as one function of the four arguments.

  The program is a fold through five segments. The first host stretch cuts the weight into its audio rows and its
  label rows and flattens the audio to a [2048, 512] matrix (row 256 n + t is the audio's (n, t)) and the label to
  a [512, 512] one (row 64 n + u is the label's (n, u)). The first two launches multiply those by the two halves of
  the weight. The second host stretch unflattens the two products to [8, 256, 1024] and [8, 64, 1024] and lays the
  bias out as [1, 1024]. The third launch adds them over the (t, u) grid. Reading each flattening at an index
  (a change of shape keeps an entry's row-major position) and composing, the result at (n, t, u, f) is

      (∑ k, a (n, t, k) · w (k, f)) + (∑ k, l (n, u, k) · w (512 + k, f)) + b f :  the specification.
-/
import proofs.«126191_j11003706212671_1_alg».proof.Proof.Gen.KernelIdeal.Frame
import proofs.«126191_j11003706212671_1_alg».proof.Proof.Spec
import proofs.«126191_j11003706212671_1_alg».proof.Proof.ProdRegions
import proofs.«126191_j11003706212671_1_alg».proof.Proof.GridRegion
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Whole

open Idealize.ShloMosaic Idealize.ShloMosaic.TcCoe Idealize.SL.Sem Idealize.ShloMosaic.ValueIdx Idealize.ShloMosaic.StableHlo
open Cert.KernelIdeal Cert.KernelIdeal.Gen Cert.Joint

/-! ## Changes of shape read at an index -/

/-- Row 256 n + t, column k of the flattened audio is the audio's entry (n, t, k). -/
theorem flat_audio (a : S8x256x512.Idx → EReal) (h : S8x256x512.ShapeCasts S2048x512) (n : Fin 8) (t : Fin 256) (k : Fin 512) :
    shapeCast S2048x512 a h (ix2 (⟨256 * n.val + t.val, by omega⟩ : Fin 2048) k) = a (ix3 n t k) := by
  refine shapeCast_apply a h _ (ix3 n t k) ?_
  rw [Shape.rowMajor_val_three, Shape.rowMajor_val_two]
  show (n.val * 256 + t.val) * 512 + k.val = (256 * n.val + t.val) * 512 + k.val
  omega

/-- Row 64 n + u, column k of the flattened label is the label's entry (n, u, k). -/
theorem flat_label (l : S8x64x512.Idx → EReal) (h : S8x64x512.ShapeCasts S512x512) (n : Fin 8) (u : Fin 64) (k : Fin 512) :
    shapeCast S512x512 l h (ix2 (⟨64 * n.val + u.val, by omega⟩ : Fin 512) k) = l (ix3 n u k) := by
  refine shapeCast_apply l h _ (ix3 n u k) ?_
  rw [Shape.rowMajor_val_three, Shape.rowMajor_val_two]
  show (n.val * 64 + u.val) * 512 + k.val = (64 * n.val + u.val) * 512 + k.val
  omega

/-- Entry (n, t, f) of the unflattened audio product is row 256 n + t, column f of the product. -/
theorem unflat_audio (y : S2048x1024.Idx → EReal) (h : S2048x1024.ShapeCasts S8x256x1024) (n : Fin 8) (t : Fin 256) (f : Fin 1024) :
    shapeCast S8x256x1024 y h (ix3 n t f) = y (ix2 (⟨256 * n.val + t.val, by omega⟩ : Fin 2048) f) := by
  refine shapeCast_apply y h _ (ix2 (⟨256 * n.val + t.val, by omega⟩ : Fin 2048) f) ?_
  rw [Shape.rowMajor_val_three, Shape.rowMajor_val_two]
  show (256 * n.val + t.val) * 1024 + f.val = (n.val * 256 + t.val) * 1024 + f.val
  omega

/-- Entry (n, u, f) of the unflattened label product is row 64 n + u, column f of the product. -/
theorem unflat_label (y : S512x1024.Idx → EReal) (h : S512x1024.ShapeCasts S8x64x1024) (n : Fin 8) (u : Fin 64) (f : Fin 1024) :
    shapeCast S8x64x1024 y h (ix3 n u f) = y (ix2 (⟨64 * n.val + u.val, by omega⟩ : Fin 512) f) := by
  refine shapeCast_apply y h _ (ix2 (⟨64 * n.val + u.val, by omega⟩ : Fin 512) f) ?_
  rw [Shape.rowMajor_val_three, Shape.rowMajor_val_two]
  show (64 * n.val + u.val) * 1024 + f.val = (n.val * 64 + u.val) * 1024 + f.val
  omega

/-- The bias laid out as one row: entry (0, f) is the bias at f. -/
theorem row_bias (b : S1024.Idx → EReal) (h : S1024.ShapeCasts S1x1024) (f : Fin 1024) :
    shapeCast S1x1024 b h (ix2 (0 : Fin 1) f) = b (ix1 f) := by
  refine shapeCast_apply b h _ (ix1 f) ?_
  rw [Shape.rowMajor_val_one, Shape.rowMajor_val_two]
  show f.val = 0 * 1024 + f.val
  omega

/-- The slice of the weight's rows 0 … 511 is its audio half. -/
theorem slice_audio (w : S1024x1024.Idx → EReal) (h : S1024x1024.Slices ![0, 0] S512x1024) :
    extractStridedSlice S512x1024 ![0, 0] w h = wAudio w := by
  funext j
  unfold wAudio
  refine extractStridedSlice_apply ![0, 0] w h j _ fun a => ?_
  match a with
  | ⟨0, _⟩ => show (j 0).val = 0 + (j 0).val; omega
  | ⟨1, _⟩ => show (j 1).val = 0 + (j 1).val; omega

/-- The slice of the weight's rows 512 … 1023 is its label half. -/
theorem slice_label (w : S1024x1024.Idx → EReal) (h : S1024x1024.Slices ![512, 0] S512x1024) :
    extractStridedSlice S512x1024 ![512, 0] w h = wLabel w := by
  funext j
  unfold wLabel
  refine extractStridedSlice_apply ![512, 0] w h j _ fun a => ?_
  match a with
  | ⟨0, _⟩ => show 512 + (j 0).val = 512 + (j 0).val; omega
  | ⟨1, _⟩ => show (j 1).val = 0 + (j 1).val; omega

/-! ## The three launches composed -/

/-- The grid sum of the two unflattened products of the flattened arguments with the weight's halves, and the bias
    row, is the specification: each change of shape read at an index, the sums term by term. -/
theorem compose (a : S8x256x512.Idx → EReal) (l : S8x64x512.Idx → EReal) (w : S1024x1024.Idx → EReal) (b : S1024.Idx → EReal)
    (h0 : S8x256x512.ShapeCasts S2048x512) (h1 : S8x64x512.ShapeCasts S512x512)
    (h2 : S2048x1024.ShapeCasts S8x256x1024) (h3 : S512x1024.ShapeCasts S8x64x1024) (h4 : S1024.ShapeCasts S1x1024) :
    gridSum (shapeCast S8x256x1024 (prodAudio (shapeCast S2048x512 a h0) (wAudio w)) h2)
        (shapeCast S8x64x1024 (prodLabel (shapeCast S512x512 l h1) (wLabel w)) h3)
        (shapeCast S1x1024 b h4)
      = joint a l w b := by
  funext i
  obtain ⟨n, t, u, f, rfl⟩ : ∃ (n : Fin 8) (t : Fin 256) (u : Fin 64) (f : Fin 1024), i = ix4 n t u f :=
    ⟨i 0, i 1, i 2, i 3, eq_ix4 i⟩
  show (shapeCast S8x256x1024 (prodAudio (shapeCast S2048x512 a h0) (wAudio w)) h2 (ix3 n t f)
        + shapeCast S8x64x1024 (prodLabel (shapeCast S512x512 l h1) (wLabel w)) h3 (ix3 n u f))
      + shapeCast S1x1024 b h4 (ix2 (0 : Fin 1) f)
    = ((∑ k : Fin 512, a (ix3 n t k) * wAudio w (ix2 k f)) + (∑ k : Fin 512, l (ix3 n u k) * wLabel w (ix2 k f))) + b (ix1 f)
  rw [unflat_audio, unflat_label, row_bias]
  refine congrArg₂ (· + ·) (congrArg₂ (· + ·) ?_ ?_) rfl
  · show (∑ k : Fin 512, shapeCast S2048x512 a h0 (ix2 (⟨256 * n.val + t.val, by omega⟩ : Fin 2048) k) * wAudio w (ix2 k f)) = _
    exact Finset.sum_congr rfl fun k _ => by rw [flat_audio]
  · show (∑ k : Fin 512, shapeCast S512x512 l h1 (ix2 (⟨64 * n.val + u.val, by omega⟩ : Fin 512) k) * wLabel w (ix2 k f)) = _
    exact Finset.sum_congr rfl fun k _ => by rw [flat_label]

/-! ## The fold through the five segments, read at the buffers the result depends on -/

variable (m : (ℓ : Loc nD τ sig) → Buf (Elt Ideal) ℓ) (ρ : Dev nD → PrngReg)

/-- Entering the first launch: the audio rows of the weight. -/
theorem entry0_w (c : Dev nD) : V1 (F := Ideal) m ρ c main_v0
    = extractStridedSlice S512x1024 ![0, 0] (m ((c : Thread nD τ).loc main_arg2)) slices_S1024x1024_S512x1024_0_0 := by
  show StableHlo.after hostOps0 (W0 m ρ c) (Proc.devRef .tc main_v0) = _
  after_results

/-- Entering the first launch: the flattened audio. -/
theorem entry0_x (c : Dev nD) : V1 (F := Ideal) m ρ c main_v2
    = shapeCast S2048x512 (m ((c : Thread nD τ).loc main_arg0)) shapeCasts_S8x256x512_S2048x512 := by
  show StableHlo.after hostOps0 (W0 m ρ c) (Proc.devRef .tc main_v2) = _
  after_results
  rfl

/-- Entering the second launch (the first launch writes neither): the label rows of the weight. -/
theorem entry1_w (c : Dev nD) : V2 (F := Ideal) m ρ c main_v1
    = extractStridedSlice S512x1024 ![512, 0] (m ((c : Thread nD τ).loc main_arg2)) slices_S1024x1024_S512x1024_512_0 := by
  show W2 m ρ c (Proc.devRef .tc main_v1) = _
  rw [W2_of_ne m ρ c main_v1 (by decide)]
  show StableHlo.after hostOps0 (W0 m ρ c) (Proc.devRef .tc main_v1) = _
  after_results

/-- Entering the second launch: the flattened label. -/
theorem entry1_x (c : Dev nD) : V2 (F := Ideal) m ρ c main_v3
    = shapeCast S512x512 (m ((c : Thread nD τ).loc main_arg1)) shapeCasts_S8x64x512_S512x512 := by
  show W2 m ρ c (Proc.devRef .tc main_v3) = _
  rw [W2_of_ne m ρ c main_v3 (by decide)]
  show StableHlo.after hostOps0 (W0 m ρ c) (Proc.devRef .tc main_v3) = _
  after_results
  rfl

/-- After the second launch the first launch's product is still what the first launch left. -/
theorem exit1_audio (c : Dev nD) : W3 (F := Ideal) m ρ c (Proc.devRef .tc main_v4) = (dat0 (V1 m ρ) c).arrAt 2 cfg0.N := by
  rw [W3_of_ne m ρ c main_v4 (by decide)]
  exact W2_arr m ρ c 2

/-- After the second launch its output holds what it left. -/
theorem exit1_label (c : Dev nD) : W3 (F := Ideal) m ρ c (Proc.devRef .tc main_v5) = (dat1 (V2 m ρ) c).arrAt 2 cfg1.N :=
  W3_arr m ρ c 2

/-- Nothing up to the second launch's exit writes the bias. -/
theorem exit1_bias (c : Dev nD) : W3 (F := Ideal) m ρ c (Proc.devRef .tc main_arg3) = m ((c : Thread nD τ).loc main_arg3) := by
  rw [W3_of_ne m ρ c main_arg3 (by decide), W2_of_ne m ρ c main_arg3 (by decide)]
  show StableHlo.after hostOps0 (W0 m ρ c) (Proc.devRef .tc main_arg3) = _
  after_results

/-- Entering the third launch: the audio product unflattened. -/
theorem entry2_audio (c : Dev nD) : V4 (F := Ideal) m ρ c main_v6
    = shapeCast S8x256x1024 (W3 m ρ c (Proc.devRef .tc main_v4)) shapeCasts_S2048x1024_S8x256x1024 := by
  show StableHlo.after hostOps2 (W3 m ρ c) (Proc.devRef .tc main_v6) = _
  after_results
  rfl

/-- Entering the third launch: the label product unflattened. -/
theorem entry2_label (c : Dev nD) : V4 (F := Ideal) m ρ c main_v7
    = shapeCast S8x64x1024 (W3 m ρ c (Proc.devRef .tc main_v5)) shapeCasts_S512x1024_S8x64x1024 := by
  show StableHlo.after hostOps2 (W3 m ρ c) (Proc.devRef .tc main_v7) = _
  after_results
  rfl

/-- Entering the third launch: the bias as one row. -/
theorem entry2_bias (c : Dev nD) : V4 (F := Ideal) m ρ c main_v8
    = shapeCast S1x1024 (W3 m ρ c (Proc.devRef .tc main_arg3)) shapeCasts_S1024_S1x1024 := by
  show StableHlo.after hostOps2 (W3 m ρ c) (Proc.devRef .tc main_v8) = _
  after_results
  rfl

/-- The result buffer at the last boundary is what the third launch left in its output. -/
theorem exit2 (c : Dev nD) : W5 (F := Ideal) m ρ c (Proc.devRef .tc main_v9) = (dat2 (V4 m ρ) c).arrAt 3 cfg2.N :=
  W5_arr m ρ c 3

/-- THE RESULT: at the last boundary the result array is the specification of the four launch-time arguments. -/
theorem result (c : Dev nD) :
    W5 (F := Ideal) m ρ c (Proc.devRef .tc main_v9)
      = joint (m ((c : Thread nD τ).loc main_arg0)) (m ((c : Thread nD τ).loc main_arg1))
          (m ((c : Thread nD τ).loc main_arg2)) (m ((c : Thread nD τ).loc main_arg3)) := by
  rw [exit2, Region2.arr_final, entry2_audio, entry2_label, entry2_bias, exit1_audio, exit1_label, exit1_bias,
    Region0.arr_final, Region1.arr_final, entry0_x, entry0_w, entry1_x, entry1_w, slice_audio, slice_label]
  exact compose _ _ _ _ _ _ _ _ _

end Cert.KernelIdeal.Whole

end
-- ==== Proof.RefValue.lean ====
import proofs.«126191_j11003706212671_1_alg».proof.Proof.Gen.ReferenceIdeal.Run
import proofs.«126191_j11003706212671_1_alg».proof.Proof.Gen.ReferenceIdeal.Read
import proofs.«126191_j11003706212671_1_alg».proof.Proof.Spec
import Idealize.ShloMosaic.Lib.ValueIdx
noncomputable section
namespace Cert.ReferenceIdeal.RefValue
open Idealize.ShloMosaic Cert.ReferenceIdeal Cert.ReferenceIdeal.Read

/-- The reference program's result, read one entry at a time, is the specification: at (n, t, u, f) the two
    projections (audio rows of the weight, then label rows) are summed over the 512 features, added, and the bias
    entry f is added last. The index maps of the slices, contractions and broadcasts compose to the coordinates
    the specification names. -/
theorem ref_eq (x0 : (⟨S8x256x512, .f32⟩ : BufTy).Contents (Elt Ideal)) (x1 : (⟨S8x64x512, .f32⟩ : BufTy).Contents (Elt Ideal))
    (x2 : (⟨S1024x1024, .f32⟩ : BufTy).Contents (Elt Ideal)) (x3 : (⟨S1024, .f32⟩ : BufTy).Contents (Elt Ideal)) :
    val_main_v11 (F := Ideal) x0 x1 x2 x3 = Cert.Joint.joint x0 x1 x2 x3 := by
  funext i
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply]
  unfold Cert.Joint.joint Cert.Joint.wAudio Cert.Joint.wLabel
  -- audio operand: (n, t, u, f) ↦ (n, t, 0, f) ↦ (n, t, f), contracted at k: entry (n, t, k)
  have ha : ∀ k : Fin 512, lidx_main_v2 (idx_main_v4 (idx_main_v6 i)) k = ValueIdx.ix3 (i 0) (i 1) k := fun k =>
    funext fun a => Fin.ext (by match a with | ⟨0, _⟩ => rfl | ⟨1, _⟩ => rfl | ⟨2, _⟩ => rfl)
  -- audio half of the weight: row k, column f
  have hwa : ∀ k : Fin 512, idx_main_v0 (ridx_main_v2 (idx_main_v4 (idx_main_v6 i)) k)
      = ValueIdx.ix2 (⟨(ValueIdx.ix2 k (i 3) 0).val, by have := k.isLt; show k.val < 1024; omega⟩ : Fin 1024)
          (ValueIdx.ix2 k (i 3) 1) := fun k =>
    funext fun a => Fin.ext (by match a with | ⟨0, _⟩ => rfl | ⟨1, _⟩ => rfl)
  -- label operand: (n, t, u, f) ↦ (n, 0, u, f) ↦ (n, u, f), contracted at k: entry (n, u, k)
  have hl : ∀ k : Fin 512, lidx_main_v3 (idx_main_v5 (idx_main_v7 i)) k = ValueIdx.ix3 (i 0) (i 2) k := fun k =>
    funext fun a => Fin.ext (by match a with | ⟨0, _⟩ => rfl | ⟨1, _⟩ => rfl | ⟨2, _⟩ => rfl)
  -- label half of the weight: row 512 + k, column f
  have hwl : ∀ k : Fin 512, idx_main_v1 (ridx_main_v3 (idx_main_v5 (idx_main_v7 i)) k)
      = ValueIdx.ix2 (⟨512 + (ValueIdx.ix2 k (i 3) 0).val, by have := k.isLt; show 512 + k.val < 1024; omega⟩ : Fin 1024)
          (ValueIdx.ix2 k (i 3) 1) := fun k =>
    funext fun a => Fin.ext (by match a with | ⟨0, _⟩ => rfl | ⟨1, _⟩ => rfl)
  -- bias: (n, t, u, f) ↦ (0, 0, 0, f) ↦ f
  have hb : idx_main_v9 (idx_main_v10 i) = ValueIdx.ix1 (i 3) :=
    funext fun a => Fin.ext (by match a with | ⟨0, _⟩ => rfl)
  rw [hb]
  simp only [ha, hwa, hl, hwl]
  rfl
end Cert.ReferenceIdeal.RefValue
end
-- ==== Proof.lean ====
/-
  The certificate of the joint network: a kernel of three launches against its jnp reference, equal over the
  extended reals.

  Both programs compute, at (n, t, u, f),

      (∑ k < 512, audio (n, t, k) · W (k, f)) + (∑ k < 512, label (n, u, k) · W (512 + k, f)) + b f

  (Proof/Spec.lean). The reference contracts the two rank-3 arguments with the two halves of the weight and adds the
  broadcasts (Proof/RefValue.lean, over its run read one operation at a time). The kernel flattens the leading axes,
  multiplies block of 256 rows by block of 256 rows in two launches (Proof/ProdRegions.lean: a block product is the
  product's block, the rounding to bf16 before the product being the identity on extended reals and the product into
  a zero accumulator the plain sum), unflattens, and adds over the (t, u) grid in blocks of 32 values of t in a third
  launch (Proof/GridRegion.lean); the three are composed through the program's fold in Proof/KernelValue.lean, the
  run with the result named is Proof/KernelRun.lean. No law of arithmetic beyond reading sums term by term is used,
  so the finiteness of the inputs is never opened: the sums and the two additions are grouped alike on both sides.

  The three frames are the two generated frame certificates and the reference's run with its result dropped; the
  idealization rewrote nothing, so its conjunct is trivial.
-/
import proofs.«126191_j11003706212671_1_alg».proof.Defs
import proofs.«126191_j11003706212671_1_alg».proof.Proof.Gen.Kernel
import proofs.«126191_j11003706212671_1_alg».proof.Proof.Gen.Kernel.Frame
import proofs.«126191_j11003706212671_1_alg».proof.Proof.Gen.KernelIdeal
import proofs.«126191_j11003706212671_1_alg».proof.Proof.Gen.KernelIdeal.Frame
import proofs.«126191_j11003706212671_1_alg».proof.Proof.Gen.ReferenceIdeal
import proofs.«126191_j11003706212671_1_alg».proof.Proof.Gen.ReferenceIdeal.Run
import proofs.«126191_j11003706212671_1_alg».proof.Proof.Gen.ReferenceIdeal.Read
import proofs.«126191_j11003706212671_1_alg».proof.Proof.Gen.Pre_finite_inputs
import proofs.«126191_j11003706212671_1_alg».proof.Proof.KernelRun
import proofs.«126191_j11003706212671_1_alg».proof.Proof.KernelValue
import proofs.«126191_j11003706212671_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is twelve host operations: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the specification of those arguments in
    their result arrays: the kernel by its fold read through the three launches, the reference by its operations
    read at an index. -/
theorem algebraic : Cert.algebraic_KernelIdeal_ReferenceIdeal := by
  intro m ρ m' ρ' _ hagree
  refine ⟨fun c => Cert.Joint.joint (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.result m ρ c), (h c).2⟩)
      (Cert.KernelIdeal.Named.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v11_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
